-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S800000 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S50000x64 : Shape := ⟨2, ![50000, 64]⟩
abbrev S10000x128 : Shape := ⟨2, ![10000, 128]⟩
abbrev S10000x64 : Shape := ⟨2, ![10000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 24
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S64, .f32⟩
  | .hbm, ⟨6, _⟩ => ⟨S50000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S50000x64 : Shape := ⟨2, ![50000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S64, .f32⟩
  | .hbm, ⟨6, _⟩ => ⟨S50000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S1x64, .f32⟩
  | .hbm, ⟨24, _⟩ => ⟨S50000x64, .f32⟩
  | .hbm, ⟨25, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Project.lean ====
/-
  The first region's value. Its body multiplies a block of 10000 rows of the node features by the whole weight matrix
  into a zero accumulator; over the extended reals that is, entry by entry, the plain sum over the 128 shared
  coordinates of the products. Block `t` of the output is written from rows `10000·t … 10000·t + 9999` of the
  features, the five blocks tile the 50000 rows, so after the region the output array is the whole product
  `support X W (r, q) = ∑ k, X (r, k) · W (k, q)` of the arrays the region was entered with.
-/
import proofs.«404888_j4587025072811_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Project

open Cert.KernelIdeal Cert.KernelIdeal.Gen
open Idealize.ShloMosaic Idealize.ShloMosaic.TcCoe Idealize.SL.Sem
open Idealize.ShloMosaic.Pipeline (Dat)

/-! ## The product, entry by entry -/

/-- Row `r` of the features at the shared coordinate `k`. -/
abbrev featAt (i : S50000x64.Idx) (k : Fin 128) : S50000x128.Idx := fun a => match a with
  | ⟨0, _⟩ => ⟨(i 0).val, (i 0).isLt⟩
  | ⟨1, _⟩ => ⟨k.val, k.isLt⟩
/-- Column `q` of the weights at the shared coordinate `k`. -/
abbrev weightAt (i : S50000x64.Idx) (k : Fin 128) : S128x64.Idx := fun a => match a with
  | ⟨0, _⟩ => ⟨k.val, k.isLt⟩
  | ⟨1, _⟩ => ⟨(i 1).val, (i 1).isLt⟩

/-- The projected features `X · W` over the extended reals. -/
def support (X : S50000x128.Idx → EReal) (W : S128x64.Idx → EReal) : S50000x64.Idx → EReal :=
  fun i => ∑ k : Fin 128, X (featAt i k) * W (weightAt i k)

/-! ## One block's product -/

theorem lhs_axis0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_axis1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_axis0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_axis1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Inside a block: row `p` of the feature block at `k`, -/
abbrev blockFeatAt (j : S10000x64.Idx) (k : Fin 128) : S10000x128.Idx := fun a => match a with
  | ⟨0, _⟩ => ⟨(j 0).val, (j 0).isLt⟩
  | ⟨1, _⟩ => ⟨k.val, k.isLt⟩
/-- and column `q` of the weights at `k`. -/
abbrev blockWeightAt (j : S10000x64.Idx) (k : Fin 128) : S128x64.Idx := fun a => match a with
  | ⟨0, _⟩ => ⟨k.val, k.isLt⟩
  | ⟨1, _⟩ => ⟨(j 1).val, (j 1).isLt⟩

/-- The body's stored value at an entry of the block: with a zero accumulator the matrix unit's result is the sum of
    the 128 products. -/
theorem payload_apply (x0 : Vec Ideal S10000x128 .f32) (x1 : Vec Ideal S128x64 .f32) (j : S10000x64.Idx) :
    k0_pay1 (F := Ideal) x0 x1 j = ∑ k : Fin 128, x0 (blockFeatAt j k) * x1 (blockWeightAt j k) := by
  unfold k0_pay1
  refine (Ideal.matmul_constant_zero_apply dot_S10000x128_S128x64_S10000x64_1_0_0_1_n_n none x0 x1 j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = blockFeatAt j k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx j ((ValueIdx.contrEquiv1 dot_S10000x128_S128x64_S10000x64_1_0_0_1_n_n 128 rfl rfl).symm k) = blockWeightAt j k := funext fun a => Fin.ext (by
    match a with
    | ⟨0, _⟩ => exact (rhs_axis0 _ _).trans hk
    | ⟨1, _⟩ => exact rhs_axis1 _ _)
  rw [el, er]

/-! ## From the blocks to the array -/

variable (V : (c : Dev nD) → (b : Ref sig .tc) → Buf (Elt Ideal) ((c : Thread nD τ).loc b))

/-- The features and the weights as the region finds them, as arrays of extended reals. -/
abbrev feats (c : Dev nD) : S50000x128.Idx → EReal := V c main_arg0
abbrev weights (c : Dev nD) : S128x64.Idx → EReal := V c main_arg4

theorem zero_offsets : (![0, 0] : Fin 2 → Nat) = fun _ => 0 := funext fun a => by fin_cases a <;> rfl

/-- Where the three windows' blocks sit at a point: the feature block and the output block move together down the
    rows, the weights stay put, and no window moves along the columns. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every block of rows is some point's. -/
theorem block_onto : ∀ q0 : Fin 5, ∃ t : Fin cfg0.N, win0_2.index t = ![q0.val, 0] :=
  (by decide +kernel : ∀ q0 : Fin 5, ∃ t : Fin grid0.N, win0_2.index t = ![q0.val, 0])

/-- What point `t` writes back is block `t` of the whole product. -/
theorem flushed_eq (c : Dev nD) (t : Fin cfg0.N) :
    (dat0 V c).flushed 2 t = ((cfg0.win 2).blk t).view.read (Elt Ideal) (support (feats V c) (weights V c)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := block_indices t
  funext j
  refine (payload_apply (iblk0 V c 0 t) (iblk0 V c 1 t) j).trans ?_
  show ∑ k : Fin 128, feats V c (((cfg0.win 0).blk t).view.emb (blockFeatAt j k)) * weights V c (((cfg0.win 1).blk t).view.emb (blockWeightAt j k))
     = ∑ k : Fin 128, feats V c (featAt (((cfg0.win 2).blk t).view.emb j) k) * weights V c (weightAt (((cfg0.win 2).blk t).view.emb j) k)
  refine Finset.sum_congr rfl fun k _ => ?_
  have h0 : ((cfg0.win 0).blk t).view.emb (blockFeatAt j k) = featAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (blockWeightAt j k) = weightAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the output is in point `t`'s block iff each coordinate is in the block's range on its axis. -/
theorem mem_block (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- The five blocks of 10000 rows cover the 50000 rows: row `r` lies in block `r / 10000`. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region its output array is the whole product of the features and the weights it was entered with. -/
theorem final (c : Dev nD) :
    (dat0 V c).arrAt 2 cfg0.N = support (feats V c) (weights V c) :=
  (dat0 V c).arrAt_eq_of_cover 2 (support (feats V c) (weights V c)) (fun t _ => flushed_eq V c t) covered

end Cert.KernelIdeal.Project

end
-- ==== Proof.Aggregate.lean ====
/-
  Between the two regions the program gathers, scales and scatter-adds on the host: negative source indices are wrapped
  by 50000, row `src e` of the projected features is gathered for every edge `e`, scaled by the edge's weight, and the
  scaled rows are added into row `dst e` of a zero array. These sixteen host operations are kept here as ONE function
  `aggregate` of the projected features, the two index arrays and the edge weights; nothing below looks inside it. What
  the second region is entered with at the aggregate's buffer is `aggregate` of what the first region left, and the
  bias buffer is still as the first region left it.
-/
import proofs.«404888_j4587025072811_3_alg».proof.Proof.Gen.KernelIdeal.Frame
import Idealize.ShloMosaic.Lib.StableHlo.Run

set_option maxRecDepth 16384

noncomputable section

namespace Cert.KernelIdeal.Aggregate

open Cert.KernelIdeal Cert.KernelIdeal.Gen
open Idealize.ShloMosaic Idealize.ShloMosaic.TcCoe Idealize.SL.Sem Idealize.ShloMosaic.StableHlo

variable {F : FTy → Type} [FloatOps F]

/-- Gather the rows of `S` at the (wrapped) source indices, scale each by its edge weight, add each into the row its
    destination index names. -/
def aggregate (S : (⟨S50000x64, .f32⟩ : BufTy).Contents (Elt F)) (src dst : (⟨S800000, .i32⟩ : BufTy).Contents (Elt F))
    (ew : (⟨S800000, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 dst)
    (mulf (broadcastInDim S800000x64 ![0, 1] bcast_S800000x1_S800000x64_0_1 (broadcastInDim S800000x1 ![0] bcast_S800000_S800000x1_0 ew))
      (Host.gather gather_S50000x64_S800000x1_S800000x64_1_0_n_n_0_1_164 S
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

variable (m : (ℓ : Loc nD τ sig) → Buf (Elt F) ℓ) (ρ : Dev nD → PrngReg)

/-- The second region finds, at the aggregate's buffer, `aggregate` of what the first region left. -/
theorem entry_aggregate (c : Dev nD) :
    V2 m ρ c main_v13 = aggregate (V1 m ρ c main_v0) (V1 m ρ c main_arg1) (V1 m ρ c main_arg2) (V1 m ρ c main_arg3) := by
  show StableHlo.after hostOps1 (W1 m ρ c) (Proc.devRef .tc main_v13) = _
  after_results
  rfl

/-- No host operation writes the bias. -/
theorem entry_bias (c : Dev nD) : V2 m ρ c main_arg5 = V1 m ρ c main_arg5 := by
  show StableHlo.after hostOps1 (W1 m ρ c) (Proc.devRef .tc main_arg5) = _
  after_results

/-- The first region leaves the index arrays, the edge weights and the bias as launched, -/
theorem exit_arg1 (c : Dev nD) : V1 m ρ c main_arg1 = m ((c : Thread nD τ).loc main_arg1) := W1_of_ne m ρ c main_arg1 (by decide)
theorem exit_arg2 (c : Dev nD) : V1 m ρ c main_arg2 = m ((c : Thread nD τ).loc main_arg2) := W1_of_ne m ρ c main_arg2 (by decide)
theorem exit_arg3 (c : Dev nD) : V1 m ρ c main_arg3 = m ((c : Thread nD τ).loc main_arg3) := W1_of_ne m ρ c main_arg3 (by decide)
theorem exit_arg5 (c : Dev nD) : V1 m ρ c main_arg5 = m ((c : Thread nD τ).loc main_arg5) := W1_of_ne m ρ c main_arg5 (by decide)
/-- and its output array at what its write-backs make of it. -/
theorem exit_v0 (c : Dev nD) : V1 m ρ c main_v0 = (dat0 (V0 m ρ) c).arrAt 2 cfg0.N := W1_arr m ρ c 2

end Cert.KernelIdeal.Aggregate

end
-- ==== Proof.BiasAdd.lean ====
/-
  The second region's value. Its body adds, to a block of 10000 rows of the aggregated messages, the bias vector
  broadcast along the rows: entry `(p, q)` of the stored block is the block's entry plus `bias q`. The output block
  and the input block sit at the same rows, the five blocks tile the 50000 rows, so after the region the output array
  is `fun (r, q) => A (r, q) + b q` of the aggregate `A` and the bias `b` the region was entered with.
-/
import proofs.«404888_j4587025072811_3_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasAdd

open Cert.KernelIdeal Cert.KernelIdeal.Gen
open Idealize.ShloMosaic Idealize.ShloMosaic.TcCoe Idealize.SL.Sem Idealize.ShloMosaic.ValueIdx
open Idealize.ShloMosaic.Pipeline (Dat)

/-- The bias entry an output entry takes: the one at its column. -/
abbrev biasAt (i : S50000x64.Idx) : S64.Idx := fun a => match a with
  | ⟨0, _⟩ => ⟨(i 1).val, (i 1).isLt⟩

/-- The aggregate with the bias added to every row. -/
def withBias (A : S50000x64.Idx → EReal) (b : S64.Idx → EReal) : S50000x64.Idx → EReal :=
  fun i => A i + b (biasAt i)

/-- The body's stored value at an entry of the block: the shape casts keep every entry where it is, the broadcast
    repeats the one row of biases. -/
theorem payload_apply (x0 : Vec Ideal S10000x64 .f32) (x1 : Vec Ideal S64 .f32) (p : Fin 10000) (q : Fin 64) :
    k1_pay1 (F := Ideal) x0 x1 (ix2 p q) = x0 (ix2 p q) + x1 (ix1 q) := by
  unfold k1_pay1
  refine (addf_apply _ _ _).trans ?_
  refine congrArg₂ (· + ·) ?_ ?_
  · rw [shapeCast_self]
  · refine (broadcastTo_1b_ab_apply _ _ p q).trans ?_
    exact shapeCast_a_1a_apply x1 _ 0 q

variable (V : (c : Dev nD) → (b : Ref sig .tc) → Buf (Elt Ideal) ((c : Thread nD τ).loc b))

/-- The aggregate and the bias as the region finds them, as arrays of extended reals. -/
abbrev agg (c : Dev nD) : S50000x64.Idx → EReal := V c main_v13
abbrev bias (c : Dev nD) : S64.Idx → EReal := V c main_arg5

theorem zero_offsets2 : (![0, 0] : Fin 2 → Nat) = fun _ => 0 := funext fun a => by fin_cases a <;> rfl
theorem zero_offsets1 : (![0] : Fin 1 → Nat) = fun _ => 0 := funext fun a => by fin_cases a; rfl

/-- Where the three windows' blocks sit at a point: the input and the output block move together down the rows, the
    bias stays put. -/
theorem block_indices : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0
    ∧ win1_2.index t (0 : Fin 2) ≤ 4 :=
  (by decide +kernel : ∀ t : Fin grid1.N, _)

/-- Every block of rows is some point's. -/
theorem block_onto : ∀ q0 : Fin 5, ∃ t : Fin cfg1.N, win1_2.index t = ![q0.val, 0] :=
  (by decide +kernel : ∀ q0 : Fin 5, ∃ t : Fin grid1.N, win1_2.index t = ![q0.val, 0])

/-- What point `t` writes back is block `t` of the aggregate with the bias added. -/
theorem flushed_eq (c : Dev nD) (t : Fin cfg1.N) :
    (dat1 V c).flushed 2 t = ((cfg1.win 2).blk t).view.read (Elt Ideal) (withBias (agg V c) (bias V c)) := by
  show (cfg1.win 2).cut (grid1.coords t) ((dat1 V c).after 2 t) = _
  rw [after1_2]
  unfold out1_2
  rw [View.canon_unit_zero zero_offsets2]
  simp only [View.ld_unit_zero (S := S10000x64) zero_offsets2, View.ld_unit_zero (S := S64) zero_offsets1]
  obtain ⟨e0, e1, e2, e3, e4⟩ := block_indices t
  funext j
  obtain ⟨p, q, rfl⟩ : ∃ (p : Fin 10000) (q : Fin 64), j = ix2 p q := ⟨j 0, j 1, eq_ix2 j⟩
  refine (payload_apply (iblk1 V c 0 t) (iblk1 V c 1 t) p q).trans ?_
  show agg V c (((cfg1.win 0).blk t).view.emb (ix2 p q)) + bias V c (((cfg1.win 1).blk t).view.emb (ix1 q))
     = agg V c (((cfg1.win 2).blk t).view.emb (ix2 p q)) + bias V c (biasAt (((cfg1.win 2).blk t).view.emb (ix2 p q)))
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix1 q) = biasAt (((cfg1.win 2).blk t).view.emb (ix2 p q)) := by
    funext a; apply Fin.ext
    match a with
    | ⟨0, _⟩ => show win1_1.index t (0 : Fin 1) * 64 + 1 * q.val = win1_2.index t (1 : Fin 2) * 64 + 1 * q.val; omega
  rw [h0, h1]

/-- An index of the output is in point `t`'s block iff each coordinate is in the block's range on its axis. -/
theorem mem_block (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v14).slice (win1_2.rect t)).set ↔ _
  rw [View.set_slice_whole, Rect.mem_set_unit]
  exact Iff.rfl

/-- The five blocks of 10000 rows cover the 50000 rows: row `r` lies in block `r / 10000`. -/
theorem covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region its output array is the aggregate it was entered with, the bias added to every row. -/
theorem final (c : Dev nD) :
    (dat1 V c).arrAt 2 cfg1.N = withBias (agg V c) (bias V c) :=
  (dat1 V c).arrAt_eq_of_cover 2 (withBias (agg V c) (bias V c)) (fun t _ => flushed_eq V c t) covered

end Cert.KernelIdeal.BiasAdd

end
-- ==== Proof.Result.lean ====
/-
  The kernel's program, read end to end: the result buffer after the run is the second region's output array, which
  is the bias added to every row of what the region was entered with at the aggregate's buffer; that is the host
  chain's `aggregate` of the first region's output array, the whole product of the features and the weights; and
  every array the two regions and the host chain read was, when read, as launched.
-/
import proofs.«404888_j4587025072811_3_alg».proof.Proof.Gen.KernelIdeal.Frame
import proofs.«404888_j4587025072811_3_alg».proof.Proof.Project
import proofs.«404888_j4587025072811_3_alg».proof.Proof.Aggregate
import proofs.«404888_j4587025072811_3_alg».proof.Proof.BiasAdd

set_option maxRecDepth 16384

noncomputable section

namespace Cert.KernelIdeal.Result

open Cert.KernelIdeal Cert.KernelIdeal.Gen
open Idealize.ShloMosaic Idealize.ShloMosaic.TcCoe Idealize.SL.Sem
open Cert.KernelIdeal.Project (support)
open Cert.KernelIdeal.Aggregate (aggregate)
open Cert.KernelIdeal.BiasAdd (withBias)

/-- `aggregate` of equal operands. -/
theorem aggregate_congr {S S' : (⟨S50000x64, .f32⟩ : BufTy).Contents (Elt Ideal)} {src src' dst dst' : (⟨S800000, .i32⟩ : BufTy).Contents (Elt Ideal)}
    {ew ew' : (⟨S800000, .f32⟩ : BufTy).Contents (Elt Ideal)} (hS : S = S') (hsrc : src = src') (hdst : dst = dst') (hew : ew = ew') :
    aggregate (F := Ideal) S src dst ew = aggregate (F := Ideal) S' src' dst' ew' := by
  subst hS hsrc hdst hew; rfl

variable (m : (ℓ : Loc nD τ sig) → Buf (Elt Ideal) ℓ) (ρ : Dev nD → PrngReg)

/-- The first region leaves the product of the features and the weights as launched. -/
theorem projected (c : Dev nD) :
    V1 m ρ c main_v0 = support (m ((c : Thread nD τ).loc main_arg0)) (m ((c : Thread nD τ).loc main_arg4)) :=
  (Aggregate.exit_v0 m ρ c).trans (Project.final (V0 m ρ) c)

/-- The second region is entered with the aggregate of that product along the edges as launched, -/
theorem aggregated (c : Dev nD) :
    V2 m ρ c main_v13 = aggregate (F := Ideal) (support (m ((c : Thread nD τ).loc main_arg0)) (m ((c : Thread nD τ).loc main_arg4)))
      (m ((c : Thread nD τ).loc main_arg1)) (m ((c : Thread nD τ).loc main_arg2)) (m ((c : Thread nD τ).loc main_arg3)) :=
  (Aggregate.entry_aggregate m ρ c).trans
    (aggregate_congr (projected m ρ c) (Aggregate.exit_arg1 m ρ c) (Aggregate.exit_arg2 m ρ c) (Aggregate.exit_arg3 m ρ c))

/-- and with the bias as launched. -/
theorem bias_kept (c : Dev nD) : V2 m ρ c main_arg5 = m ((c : Thread nD τ).loc main_arg5) :=
  (Aggregate.entry_bias m ρ c).trans (Aggregate.exit_arg5 m ρ c)

/-- `withBias` of equal operands. -/
theorem withBias_congr {A A' : S50000x64.Idx → EReal} {b b' : S64.Idx → EReal} (hA : A = A') (hb : b = b') :
    withBias A b = withBias A' b' := by subst hA hb; rfl

/-- THE RESULT: what the result buffer holds after the run, as one function of the arguments as launched. -/
theorem result_value (c : Dev nD) :
    W3 m ρ c (Proc.devRef .tc main_v14)
      = withBias (aggregate (F := Ideal) (support (m ((c : Thread nD τ).loc main_arg0)) (m ((c : Thread nD τ).loc main_arg4)))
          (m ((c : Thread nD τ).loc main_arg1)) (m ((c : Thread nD τ).loc main_arg2)) (m ((c : Thread nD τ).loc main_arg3)))
          (m ((c : Thread nD τ).loc main_arg5)) :=
  (W3_arr m ρ c 2).trans ((BiasAdd.final (V2 m ρ) c).trans (withBias_congr (aggregated m ρ c) (bias_kept m ρ c)))

end Cert.KernelIdeal.Result

end
-- ==== Proof.Reference.lean ====
/-
  The reference at the extended reals is the same function of the arguments as the kernel's program: its host matrix
  product is, entry by entry, the sum over the 128 shared coordinates of the products (`support`); the gather, the
  scaling and the scatter-add that follow are, operation for operation, the chain the kernel's program runs between its
  two regions (`aggregate`); and its last line adds the bias, broadcast along the rows, to every row (`withBias`).
-/
import proofs.«404888_j4587025072811_3_alg».proof.Proof.Gen.ReferenceIdeal.Run
import proofs.«404888_j4587025072811_3_alg».proof.Proof.Gen.ReferenceIdeal.Read
import proofs.«404888_j4587025072811_3_alg».proof.Proof.Project
import proofs.«404888_j4587025072811_3_alg».proof.Proof.Aggregate
import proofs.«404888_j4587025072811_3_alg».proof.Proof.BiasAdd

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.KernelIdeal.Project (support featAt weightAt)
open Cert.KernelIdeal.Aggregate (aggregate)
open Cert.KernelIdeal.BiasAdd (withBias biasAt)

/-- The host's matrix product is the sum of the 128 products at every entry. -/
theorem product_eq (x0 : FVec Ideal S50000x128 .f32) (x4 : FVec Ideal S128x64 .f32) :
    Host.dotGeneral (F := Ideal) dot_S50000x128_S128x64_S50000x64_1_0_0_1_n_n none x0 x4 = support x0 x4 := by
  funext i
  refine (val_main_v0_apply x0 x4 i).trans ?_
  refine Finset.sum_congr rfl fun k _ => ?_
  have el : lidx_main_v0 i k = featAt i k := funext fun a => by
    match a with
    | ⟨0, _⟩ => rfl
    | ⟨1, _⟩ => rfl
  have er : ridx_main_v0 i k = weightAt i k := funext fun a => by
    match a with
    | ⟨0, _⟩ => rfl
    | ⟨1, _⟩ => rfl
  rw [el, er]

/-- The bias broadcast to a row and then along the rows reads, at an entry, the bias at the entry's column. -/
theorem bias_rows_apply (x5 : FVec Ideal S64 .f32) (i : S50000x64.Idx) :
    broadcastInDim S50000x64 ![0, 1] bcast_S1x64_S50000x64_0_1 (broadcastInDim S1x64 ![1] bcast_S64_S1x64_1 x5) i = x5 (biasAt i) := by
  refine (val_main_v15_apply (F := Ideal) x5 i).trans ?_
  refine (val_main_v14_apply (F := Ideal) x5 _).trans ?_
  refine congrArg x5 (funext fun a => ?_)
  match a with
  | ⟨0, _⟩ => rfl

/-- The reference's result term is `withBias (aggregate (support X W) src dst ew) b`. -/
theorem result_eq (x0 : FVec Ideal S50000x128 .f32) (x1 x2 : (⟨S800000, .i32⟩ : BufTy).Contents (Elt Ideal))
    (x3 : FVec Ideal S800000 .f32) (x4 : FVec Ideal S128x64 .f32)
    (x5 : FVec Ideal S64 .f32) :
    addf (F := Ideal) (Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 (x2)) (mulf (F := Ideal) (broadcastInDim S800000x64 ![0, 1] bcast_S800000x1_S800000x64_0_1 (broadcastInDim S800000x1 ![0] bcast_S800000_S800000x1_0 (x3))) (Host.gather gather_S50000x64_S800000x1_S800000x64_1_0_n_n_0_1_164 (Host.dotGeneral (F := Ideal) dot_S50000x128_S128x64_S50000x64_1_0_0_1_n_n none (x0) (x4)) (broadcastInDim S800000x1 ![0] bcast_S800000_S800000x1_0 (select (cmpi .slt (x1) (broadcastInDim S800000 ![] bcast_S_S800000 (constantI S_ 32 0#32))) (addi (x1) (broadcastInDim S800000 ![] bcast_S_S800000 (constantI S_ 32 50000#32))) (x1)))))) (broadcastInDim S50000x64 ![0, 1] bcast_S1x64_S50000x64_0_1 (broadcastInDim S1x64 ![1] bcast_S64_S1x64_1 (x5)))
      = withBias (aggregate (F := Ideal) (support x0 x4) x1 x2 x3) x5 := by
  rw [product_eq]
  generalize support x0 x4 = S
  funext i
  refine (addf_apply _ _ i).trans ?_
  refine congrArg₂ (· + ·) ?_ (bias_rows_apply x5 i)
  exact congrFun (show _ = aggregate (F := Ideal) S x1 x2 x3 from rfl) i

end Cert.ReferenceIdeal.RefValue

end
-- ==== Proof.lean ====
/-
  The claim: a graph convolution. With `X` the node features (50000 × 128), `W` the weights (128 × 64), `src`, `dst` and
  `ew` the 800000 edges' endpoints and weights, and `b` the bias, both programs compute

      out (r, q) = (aggregate (X · W) src dst ew) (r, q) + b q,

  where `aggregate` gathers row `src e` of its first operand for every edge `e`, scales it by `ew e` and adds it into
  row `dst e` of a zero array. The kernel's program forms `X · W` in a first region, five blocks of 10000 rows, each
  block's product accumulated from zero (Proof/Project.lean); runs the gather, the scaling and the scatter-add on the host
  (Proof/Aggregate.lean: the same sixteen operations as the reference's, kept as one function); and adds the bias in a
  second region, again five blocks of rows (Proof/BiasAdd.lean). Proof/Result.lean joins the three into the value of the
  result buffer, which Proof/Run.lean reads off the final state. The reference forms `X · W` by one host matrix
  product, which over the extended reals is the same sum of 128 products at every entry, and adds the broadcast bias
  on the host (Proof/Reference.lean). No law beyond the definition of the two matrix products is used, so the
  finiteness of the inputs is never opened. The ideal pass rewrote nothing, so the kernel's idealization is its own
  text and `preserves` holds trivially.
-/
import proofs.«404888_j4587025072811_3_alg».proof.Defs
import proofs.«404888_j4587025072811_3_alg».proof.Proof.Gen.Kernel
import proofs.«404888_j4587025072811_3_alg».proof.Proof.Gen.Kernel.Skeleton
import proofs.«404888_j4587025072811_3_alg».proof.Proof.Gen.Kernel.Launch
import proofs.«404888_j4587025072811_3_alg».proof.Proof.Gen.Kernel.Points
import proofs.«404888_j4587025072811_3_alg».proof.Proof.Gen.Kernel.Frame
import proofs.«404888_j4587025072811_3_alg».proof.Proof.Gen.KernelIdeal
import proofs.«404888_j4587025072811_3_alg».proof.Proof.Gen.KernelIdeal.Skeleton
import proofs.«404888_j4587025072811_3_alg».proof.Proof.Gen.KernelIdeal.Launch
import proofs.«404888_j4587025072811_3_alg».proof.Proof.Gen.KernelIdeal.Points
import proofs.«404888_j4587025072811_3_alg».proof.Proof.Gen.KernelIdeal.Frame
import proofs.«404888_j4587025072811_3_alg».proof.Proof.Gen.ReferenceIdeal
import proofs.«404888_j4587025072811_3_alg».proof.Proof.Gen.ReferenceIdeal.Run
import proofs.«404888_j4587025072811_3_alg».proof.Proof.Gen.ReferenceIdeal.Read
import proofs.«404888_j4587025072811_3_alg».proof.Proof.Gen.Pre_finite_inputs
import proofs.«404888_j4587025072811_3_alg».proof.Proof.Run
import proofs.«404888_j4587025072811_3_alg».proof.Proof.Result
import proofs.«404888_j4587025072811_3_alg».proof.Proof.Reference
import Idealize.ShloMosaic.Adequacy
import Idealize.ShloMosaic.Init

noncomputable section

namespace Cert.Proof

open Idealize.ShloMosaic Idealize.SL.Sem
open Cert.KernelIdeal.Project (support)
open Cert.KernelIdeal.Aggregate (aggregate)
open Cert.KernelIdeal.BiasAdd (withBias)

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's program ends with the result buffer at `withBias (aggregate (X · W) src dst ew) b` of the arguments as
    launched, the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v14)
        = withBias (aggregate (F := Ideal) (support (m ((c.tc : Thread Cert.KernelIdeal.nD Cert.KernelIdeal.τ).loc Cert.KernelIdeal.main_arg0)) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c => ⟨(h c).1.trans (Cert.KernelIdeal.Result.result_value m ρ c), (h c).2⟩)
    (Cert.KernelIdeal.Run.run_result (F := Ideal) m ρ)

/-- From memories that agree on the arguments the two programs end with the same result: the kernel's by
    `kernel_run`, the reference's by its run and `result_eq`. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
